-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x128x128 : Shape := ⟨4, ![16, 256, 128, 128]⟩
abbrev S16x256 : Shape := ⟨2, ![16, 256]⟩
abbrev S16 : Shape := ⟨1, ![16]⟩
abbrev S256x16 : Shape := ⟨2, ![256, 16]⟩
abbrev S256 : Shape := ⟨1, ![256]⟩
abbrev S_ : Shape := ⟨0, ![]⟩

class Facts : Prop where
  bcast_S_S16x256x128x128 : S_.BroadcastsInDim S16x256x128x128 (![] : Fin 0 → Fin S16x256x128x128.rank)
  reducesTo_S16x256x128x128_S_d0_1_2_3 : S16x256x128x128.ReducesTo [0, 1, 2, 3] S_
  h_S_ : 0 < S_.numel
  bcast_S_S16x256 : S_.BroadcastsInDim S16x256 (![] : Fin 0 → Fin S16x256.rank)
  reducesTo_S16x256_S_d0_1 : S16x256.ReducesTo [0, 1] S_
  bcast_S_S16 : S_.BroadcastsInDim S16 (![] : Fin 0 → Fin S16.rank)
  reducesTo_S16_S_d0 : S16.ReducesTo [0] S_
  bcast_S_S256x16 : S_.BroadcastsInDim S256x16 (![] : Fin 0 → Fin S256x16.rank)
  reducesTo_S256x16_S_d0_1 : S256x16.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x16 1) : IVec S_ 1 :=
  let main_c_5 : IVec S_ 1 := constantI S_ 1 1#1
  let main_v17 : IVec S_ 1 := (fun x v => Host.reduce IntOp.andi x v reducesTo_S256x16_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S16x256x128x128 .f32) (main_arg1 : FVec F S16x256 .f32) (main_arg2 : FVec F S16 .f32) (main_arg3 : FVec F S256x16 .f32) (main_arg4 : FVec F S256 .f32) : IVec S_ 1 :=
  let main_v0 : FVec F S16x256x128x128 .f32 := Host.absf main_arg0
  let main_cst : FVec F S_ .f32 := constant S_ .f32 0x7F800000#32
  let main_v1 : FVec F S16x256x128x128 .f32 := broadcastInDim S16x256x128x128 ![] bcast_S_S16x256x128x128 main_cst
  let main_v2 : IVec S16x256x128x128 1 := cmpf .olt main_v0 main_v1
  let main_c : IVec S_ 1 := constantI S_ 1 1#1
  let main_v3 : IVec S_ 1 := (fun x v => Host.reduce IntOp.andi x v reducesTo_S16x256x128x128_S_d0_1_2_3 h_S_) main_v2 main_c
  let main_v4 : FVec F S16x256 .f32 := Host.absf main_arg1
  let main_cst_0 : FVec F S_ .f32 := constant S_ .f32 0x7F800000#32
  let main_v5 : FVec F S16x256 .f32 := broadcastInDim S16x256 ![] bcast_S_S16x256 main_cst_0
  let main_v6 : IVec S16x256 1 := cmpf .olt main_v4 main_v5
  let main_c_1 : IVec S_ 1 := constantI S_ 1 1#1
  let main_v7 : IVec S_ 1 := (fun x v => Host.reduce IntOp.andi x v reducesTo_S16x256_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S256x16 .f32 := Host.absf main_arg3
  let main_cst_4 : FVec F S_ .f32 := constant S_ .f32 0x7F800000#32
  let main_v15 : FVec F S256x16 .f32 := broadcastInDim S256x16 ![] bcast_S_S256x16 main_cst_4
  let main_v16 : IVec S256x16 1 := cmpf .olt main_v14 main_v15
  fn_part1 (F := F) main_arg4 main_v13 main_v16
-- ==== Kernel.lean ====
abbrev S16x256x128x128 : Shape := ⟨4, ![16, 256, 128, 128]⟩
abbrev S16x256 : Shape := ⟨2, ![16, 256]⟩
abbrev S16 : Shape := ⟨1, ![16]⟩
abbrev S256x16 : Shape := ⟨2, ![256, 16]⟩
abbrev S256 : Shape := ⟨1, ![256]⟩
abbrev S16x256x1x1 : Shape := ⟨4, ![16, 256, 1, 1]⟩
abbrev S16x16x128x128 : Shape := ⟨4, ![16, 16, 128, 128]⟩
abbrev S16x16x1x1 : Shape := ⟨4, ![16, 16, 1, 1]⟩
abbrev S16x16x128 : Shape := ⟨3, ![16, 16, 128]⟩
abbrev S16x16x128x1 : Shape := ⟨4, ![16, 16, 128, 1]⟩
abbrev S16x16x1 : Shape := ⟨3, ![16, 16, 1]⟩
abbrev S16x16 : Shape := ⟨2, ![16, 16]⟩
abbrev S1x16 : Shape := ⟨2, ![1, 16]⟩
abbrev S1x256 : Shape := ⟨2, ![1, 256]⟩
abbrev S16x8x128x128 : Shape := ⟨4, ![16, 8, 128, 128]⟩
abbrev S16x8x1x1 : Shape := ⟨4, ![16, 8, 1, 1]⟩

abbrev nBuf : Space → Nat
  | .hbm => 10
  | .vmem => 16
  | .smem => 0
  | _ => 0

abbrev bufTy : (tb : Table) → Fin (tcTables nBuf tb) → BufTy
  | .hbm, ⟨0, _⟩ => ⟨S16x256x128x128, .f32⟩
  | .hbm, ⟨1, _⟩ => ⟨S16x256, .f32⟩
  | .hbm, ⟨2, _⟩ => ⟨S16, .f32⟩
  | .hbm, ⟨3, _⟩ => ⟨S256x16, .f32⟩
  | .hbm, ⟨4, _⟩ => ⟨S256, .f32⟩
  | .hbm, ⟨5, _⟩ => ⟨S16x256x1x1, .f32⟩
  | .hbm, ⟨6, _⟩ => ⟨S16x256, .f32⟩
  | .hbm, ⟨7, _⟩ => ⟨S16x256, .f32⟩
  | .hbm, ⟨8, _⟩ => ⟨S16x256x1x1, .f32⟩
  | .hbm, ⟨9, _⟩ => ⟨S16x256x128x128, .f32⟩
  | .local _ .vmem, ⟨0, _⟩ => ⟨S16x16x128x128, .f32⟩
  | .local _ .vmem, ⟨1, _⟩ => ⟨S16x16x128x128, .f32⟩
  | .local _ .vmem, ⟨2, _⟩ => ⟨S16x16x1x1, .f32⟩
  | .local _ .vmem, ⟨3, _⟩ => ⟨S16x16x1x1, .f32⟩
  | .local _ .vmem, ⟨4, _⟩ => ⟨S16x256, .f32⟩
  | .local _ .vmem, ⟨5, _⟩ => ⟨S16x256, .f32⟩
  | .local _ .vmem, ⟨6, _⟩ => ⟨S16, .f32⟩
  | .local _ .vmem, ⟨7, _⟩ => ⟨S256x16, .f32⟩
  | .local _ .vmem, ⟨8, _⟩ => ⟨S256, .f32⟩
  | .local _ .vmem, ⟨9, _⟩ => ⟨S16x256, .f32⟩
  | .local _ .vmem, ⟨10, _⟩ => ⟨S16x8x128x128, .f32⟩
  | .local _ .vmem, ⟨11, _⟩ => ⟨S16x8x128x128, .f32⟩
  | .local _ .vmem, ⟨12, _⟩ => ⟨S16x8x1x1, .f32⟩
  | .local _ .vmem, ⟨13, _⟩ => ⟨S16x8x1x1, .f32⟩
  | .local _ .vmem, ⟨14, _⟩ => ⟨S16x8x128x128, .f32⟩
  | .local _ .vmem, ⟨15, _⟩ => ⟨S16x8x128x128, .f32⟩
  | _, _ => ⟨S16x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S16x16x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x16x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S16x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S16x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![32], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc2_transform_1 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc2_transform_2 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage2_0 : Fin 2 → Memref sig .tc .vmem S16x8x128x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S16x8x1x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S16x8x128x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  inb_S16x16x128x128_S16x16x128x128_0_0_0_0 : ∀ a, (![0, 0, 0, 0] : Fin 4 → Nat) a + S16x16x128x128.size a ≤ S16x16x128x128.size a
  h_S16x16x128x128 : 0 < S16x16x128x128.numel
  reduces_S16x16x128x128_S16x16x128 : S16x16x128x128.Reduces [3] S16x16x128
  shapeCasts_S16x16x128_S16x16x128x1 : S16x16x128.ShapeCasts S16x16x128x1
  reduces_S16x16x128x1_S16x16x1 : S16x16x128x1.Reduces [2] S16x16x1
  shapeCasts_S16x16x1_S16x16x1x1 : S16x16x1.ShapeCasts S16x16x1x1
  inb_S16x16x1x1_S16x16x1x1_0_0_0_0 : ∀ a, (![0, 0, 0, 0] : Fin 4 → Nat) a + S16x16x1x1.size a ≤ S16x16x1x1.size a
  h_S16x16x1x1 : 0 < S16x16x1x1.numel
  shapeCasts_S16x256x1x1_S16x256 : S16x256x1x1.ShapeCasts S16x256
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S16_S16_0 : ∀ a, (![0] : Fin 1 → Nat) a + S16.size a ≤ S16.size a
  h_S16 : 0 < S16.numel
  inb_S256x16_S256x16_0_0 : ∀ a, (![0, 0] : Fin 2 → Nat) a + S256x16.size a ≤ S256x16.size a
  h_S256x16 : 0 < S256x16.numel
  inb_S256_S256_0 : ∀ a, (![0] : Fin 1 → Nat) a + S256.size a ≤ S256.size a
  h_S256 : 0 < S256.numel
  shapeCasts_S16_S1x16 : S16.ShapeCasts S1x16
  broadcasts_S1x16_S16x16 : S1x16.Broadcasts S16x16
  shapeCasts_S256_S1x256 : S256.ShapeCasts S1x256
  broadcasts_S1x256_S16x256 : S1x256.Broadcasts S16x256
  shapeCasts_S16x256_S16x256x1x1 : S16x256.ShapeCasts S16x256x1x1
  inb_S16x8x128x128_S16x8x128x128_0_0_0_0 : ∀ a, (![0, 0, 0, 0] : Fin 4 → Nat) a + S16x8x128x128.size a ≤ S16x8x128x128.size a
  h_S16x8x128x128 : 0 < S16x8x128x128.numel
  inb_S16x8x1x1_S16x8x1x1_0_0_0_0 : ∀ a, (![0, 0, 0, 0] : Fin 4 → Nat) a + S16x8x1x1.size a ≤ S16x8x1x1.size a
  h_S16x8x1x1 : 0 < S16x8x1x1.numel
  shapeCasts_S16x8x1x1_S16x8x1x1 : S16x8x1x1.ShapeCasts S16x8x1x1
  broadcasts_S16x8x1x1_S16x8x128x128 : S16x8x1x1.Broadcasts S16x8x128x128
  dot_S16x256_S16x256_S16x16_1_1_0_0_n_n_wf : DotDims.WF S16x256 S16x256 S16x16 [1] [1] [0] [0] [] []
  dot_S16x16_S256x16_S16x256_1_1_0_0_n_n_wf : DotDims.WF S16x16 S256x16 S16x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x16x128x128.size a ≤ S16x256x128x128.size a
  hwx0_0 : ∀ i : grid0.Coords, EltTy.bits .f32 = 32 ∨ (Rect.block (s := S16x256x128x128) S16x16x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x16x1x1.size a ≤ S16x256x1x1.size a
  hwx0_1 : ∀ i : grid0.Coords, EltTy.bits .f32 = 32 ∨ (Rect.block (s := S16x256x1x1) S16x16x1x1.size (cc0_transform_1 i) (hinb0_1 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S16x256.size a ≤ S16x256.size a
  hwx1_0 : ∀ i : grid1.Coords, EltTy.bits .f32 = 32 ∨ (Rect.block (s := S16x256) S16x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x256.size a ≤ S16x256.size a
  hwx1_1 : ∀ i : grid1.Coords, EltTy.bits .f32 = 32 ∨ (Rect.block (s := S16x256) S16x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16.size a ≤ S16.size a
  hwx1_2 : ∀ i : grid1.Coords, EltTy.bits .f32 = 32 ∨ (Rect.block (s := S16) S16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x16.size a ≤ S256x16.size a
  hwx1_3 : ∀ i : grid1.Coords, EltTy.bits .f32 = 32 ∨ (Rect.block (s := S256x16) S256x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16x256.size a ≤ S16x256.size a
  hwx1_5 : ∀ i : grid1.Coords, EltTy.bits .f32 = 32 ∨ (Rect.block (s := S16x256) S16x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S16x8x128x128.size a ≤ S16x256x128x128.size a
  hwx2_0 : ∀ i : grid2.Coords, EltTy.bits .f32 = 32 ∨ (Rect.block (s := S16x256x128x128) S16x8x128x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S16x8x1x1.size a ≤ S16x256x1x1.size a
  hwx2_1 : ∀ i : grid2.Coords, EltTy.bits .f32 = 32 ∨ (Rect.block (s := S16x256x1x1) S16x8x1x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S16x8x128x128.size a ≤ S16x256x128x128.size a
  hwx2_2 : ∀ i : grid2.Coords, EltTy.bits .f32 = 32 ∨ (Rect.block (s := S16x256x128x128) S16x8x128x128.size (cc2_transform_2 i) (hinb2_2 i)).WholeWords (EltTy.packing .f32)

variable [Facts₀]

def dot_S16x256_S16x256_S16x16_1_1_0_0_n_n : DotDims S16x256 S16x256 S16x16 where
  lhsContracting := [1]
  rhsContracting := [1]
  lhsNonContracting := [0]
  rhsNonContracting := [0]
  lhsBatch := []
  rhsBatch := []
  wf := dot_S16x256_S16x256_S16x16_1_1_0_0_n_n_wf
def dot_S16x16_S256x16_S16x256_1_1_0_0_n_n : DotDims S16x16 S256x16 S16x256 where
  lhsContracting := [1]
  rhsContracting := [1]
  lhsNonContracting := [0]
  rhsNonContracting := [0]
  lhsBatch := []
  rhsBatch := []
  wf := dot_S16x16_S256x16_S16x256_1_1_0_0_n_n_wf

abbrev win0_0 : Pipeline.Window sig grid0 :=
  Pipeline.Window.ofSpec (Memref.whole main_arg0) S16x16x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x16x1x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S16x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S16x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S256x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2) S16x256.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg0) S16x8x128x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S16x8x1x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S16x8x128x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S16x256x128x128 : Shape := ⟨4, ![16, 256, 128, 128]⟩
abbrev S16x256 : Shape := ⟨2, ![16, 256]⟩
abbrev S16 : Shape := ⟨1, ![16]⟩
abbrev S256x16 : Shape := ⟨2, ![256, 16]⟩
abbrev S256 : Shape := ⟨1, ![256]⟩
abbrev S_ : Shape := ⟨0, ![]⟩
abbrev S16x16 : Shape := ⟨2, ![16, 16]⟩
abbrev S1x16 : Shape := ⟨2, ![1, 16]⟩
abbrev S1x256 : Shape := ⟨2, ![1, 256]⟩
abbrev S16x256x1x1 : Shape := ⟨4, ![16, 256, 1, 1]⟩

abbrev nBuf : Space → Nat
  | .hbm => 36
  | .vmem => 0
  | .smem => 0
  | _ => 0

abbrev bufTy : (tb : Table) → Fin (tcTables nBuf tb) → BufTy
  | .hbm, ⟨0, _⟩ => ⟨S16x256x128x128, .f32⟩
  | .hbm, ⟨1, _⟩ => ⟨S16x256, .f32⟩
  | .hbm, ⟨2, _⟩ => ⟨S16, .f32⟩
  | .hbm, ⟨3, _⟩ => ⟨S256x16, .f32⟩
  | .hbm, ⟨4, _⟩ => ⟨S256, .f32⟩
  | .hbm, ⟨5, _⟩ => ⟨S_, .f32⟩
  | .hbm, ⟨6, _⟩ => ⟨S16x256, .f32⟩
  | .hbm, ⟨7, _⟩ => ⟨S_, .f32⟩
  | .hbm, ⟨8, _⟩ => ⟨S16x256, .f32⟩
  | .hbm, ⟨9, _⟩ => ⟨S16x256, .f32⟩
  | .hbm, ⟨10, _⟩ => ⟨S16x16, .f32⟩
  | .hbm, ⟨11, _⟩ => ⟨S1x16, .f32⟩
  | .hbm, ⟨12, _⟩ => ⟨S16x16, .f32⟩
  | .hbm, ⟨13, _⟩ => ⟨S16x16, .f32⟩
  | .hbm, ⟨14, _⟩ => ⟨S_, .f32⟩
  | .hbm, ⟨15, _⟩ => ⟨S16x16, .f32⟩
  | .hbm, ⟨16, _⟩ => ⟨S16x16, .i1⟩
  | .hbm, ⟨17, _⟩ => ⟨S_, .f32⟩
  | .hbm, ⟨18, _⟩ => ⟨S16x16, .f32⟩
  | .hbm, ⟨19, _⟩ => ⟨S16x16, .f32⟩
  | .hbm, ⟨20, _⟩ => ⟨S16x16, .f32⟩
  | .hbm, ⟨21, _⟩ => ⟨S16x256, .f32⟩
  | .hbm, ⟨22, _⟩ => ⟨S1x256, .f32⟩
  | .hbm, ⟨23, _⟩ => ⟨S16x256, .f32⟩
  | .hbm, ⟨24, _⟩ => ⟨S16x256, .f32⟩
  | .hbm, ⟨25, _⟩ => ⟨S16x256, .f32⟩
  | .hbm, ⟨26, _⟩ => ⟨S16x256, .f32⟩
  | .hbm, ⟨27, _⟩ => ⟨S_, .f32⟩
  | .hbm, ⟨28, _⟩ => ⟨S16x256, .f32⟩
  | .hbm, ⟨29, _⟩ => ⟨S16x256, .f32⟩
  | .hbm, ⟨30, _⟩ => ⟨S_, .f32⟩
  | .hbm, ⟨31, _⟩ => ⟨S16x256, .f32⟩
  | .hbm, ⟨32, _⟩ => ⟨S16x256, .f32⟩
  | .hbm, ⟨33, _⟩ => ⟨S16x256x1x1, .f32⟩
  | .hbm, ⟨34, _⟩ => ⟨S16x256x128x128, .f32⟩
  | .hbm, ⟨35, _⟩ => ⟨S16x256x128x128, .f32⟩
  | _, _ => ⟨S16x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]

class Facts₀ : Prop where
  reducesTo_S16x256x128x128_S16x256_d2_3 : S16x256x128x128.ReducesTo [2, 3] S16x256
  h_S_ : 0 < S_.numel
  bcast_S_S16x256 : S_.BroadcastsInDim S16x256 (![] : Fin 0 → Fin S16x256.rank)
  bcast_S16_S1x16_1 : S16.BroadcastsInDim S1x16 (![1] : Fin 1 → Fin S1x16.rank)
  bcast_S1x16_S16x16_0_1 : S1x16.BroadcastsInDim S16x16 (![0, 1] : Fin 2 → Fin S16x16.rank)
  bcast_S_S16x16 : S_.BroadcastsInDim S16x16 (![] : Fin 0 → Fin S16x16.rank)
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  bcast_S16x256_S16x256x1x1_0_1 : S16x256.BroadcastsInDim S16x256x1x1 (![0, 1] : Fin 2 → Fin S16x256x1x1.rank)
  bcast_S16x256x1x1_S16x256x128x128_0_1_2_3 : S16x256x1x1.BroadcastsInDim S16x256x128x128 (![0, 1, 2, 3] : Fin 4 → Fin S16x256x128x128.rank)
  dot_S16x256_S16x256_S16x16_1_1_0_0_n_n_wf : DotDims.WF S16x256 S16x256 S16x16 [1] [1] [0] [0] [] []
  dot_S16x16_S256x16_S16x256_1_1_0_0_n_n_wf : DotDims.WF S16x16 S256x16 S16x256 [1] [1] [0] [0] [] []

variable [Facts₀]

def dot_S16x256_S16x256_S16x16_1_1_0_0_n_n : DotDims S16x256 S16x256 S16x16 where
  lhsContracting := [1]
  rhsContracting := [1]
  lhsNonContracting := [0]
  rhsNonContracting := [0]
  lhsBatch := []
  rhsBatch := []
  wf := dot_S16x256_S16x256_S16x16_1_1_0_0_n_n_wf
def dot_S16x16_S256x16_S16x256_1_1_0_0_n_n : DotDims S16x16 S256x16 S16x256 where
  lhsContracting := [1]
  rhsContracting := [1]
  lhsNonContracting := [0]
  rhsNonContracting := [0]
  lhsBatch := []
  rhsBatch := []
  wf := dot_S16x16_S256x16_S16x256_1_1_0_0_n_n_wf

class Facts : Prop extends Facts₀ where

variable [Facts]
-- ==== Proof.Boundaries.lean ====
/- The contents each region finds in the buffers it reads.

   @main runs the pooling region, reshapes its [16,256,1,1] result to [16,256], runs the gate region on that and the
   four weight arguments, reshapes the [16,256] gate to [16,256,1,1], and runs the scaling region on the first
   argument and that. Between launch and return every buffer's contents are a fold through these five segments;
   here that fold is read at each buffer a later region loads: an argument is still as launched (no region and no
   reshape writes one), and each reshape's result is the cast of the array the region before it wrote. -/
import proofs.«128204_j14757507629900_1_alg».proof.Proof.Gen.KernelIdeal.Frame
import Idealize.ShloMosaic.Lib.StableHlo.Run

set_option maxRecDepth 16384

noncomputable section

namespace Cert.KernelIdeal.Run

open Cert.KernelIdeal Cert.KernelIdeal.Gen
open Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ) (ρ : Dev nD → PrngReg)

/-- The first region finds the first argument as launched. -/
theorem entry0_main_arg0 (c : Dev nD) : V0 m ρ c main_arg0 = m ((c : Thread nD τ).loc main_arg0) := rfl

/-- After the first region its output window's array holds what the write-backs left there. -/
theorem exit0_main_v0 (c : Dev nD) : V1 m ρ c main_v0 = (dat0 (V0 m ρ) c).arrAt 1 cfg0.N := W1_arr m ρ c 1

/-- The second region finds in its first operand the [16,256] cast of the first region's [16,256,1,1] result. -/
theorem entry1_main_v1 (c : Dev nD) :
    V2 m ρ c main_v1 = shapeCast S16x256 (V1 m ρ c main_v0) shapeCasts_S16x256x1x1_S16x256 := by
  show StableHlo.after hostOps1 (W1 m ρ c) (Proc.devRef .tc main_v1) = _
  after_results
  rfl

/-- The second region finds argument 1 as launched: the first region does not write it and the reshape between
    them writes only its own result. -/
theorem entry1_main_arg1 (c : Dev nD) : V2 m ρ c main_arg1 = m ((c : Thread nD τ).loc main_arg1) :=
  calc W2 m ρ c (Proc.devRef .tc main_arg1)
    _ = W1 m ρ c (Proc.devRef .tc main_arg1) := StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg1) := W1_of_ne m ρ c main_arg1 (by decide)
    _ = m ((c : Thread nD τ).loc main_arg1) := rfl

/-- The second region finds argument 2 as launched: the first region does not write it and the reshape between
    them writes only its own result. -/
theorem entry1_main_arg2 (c : Dev nD) : V2 m ρ c main_arg2 = m ((c : Thread nD τ).loc main_arg2) :=
  calc W2 m ρ c (Proc.devRef .tc main_arg2)
    _ = W1 m ρ c (Proc.devRef .tc main_arg2) := StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg2) := W1_of_ne m ρ c main_arg2 (by decide)
    _ = m ((c : Thread nD τ).loc main_arg2) := rfl

/-- The second region finds argument 3 as launched: the first region does not write it and the reshape between
    them writes only its own result. -/
theorem entry1_main_arg3 (c : Dev nD) : V2 m ρ c main_arg3 = m ((c : Thread nD τ).loc main_arg3) :=
  calc W2 m ρ c (Proc.devRef .tc main_arg3)
    _ = W1 m ρ c (Proc.devRef .tc main_arg3) := StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg3) := W1_of_ne m ρ c main_arg3 (by decide)
    _ = m ((c : Thread nD τ).loc main_arg3) := rfl

/-- The second region finds argument 4 as launched: the first region does not write it and the reshape between
    them writes only its own result. -/
theorem entry1_main_arg4 (c : Dev nD) : V2 m ρ c main_arg4 = m ((c : Thread nD τ).loc main_arg4) :=
  calc W2 m ρ c (Proc.devRef .tc main_arg4)
    _ = W1 m ρ c (Proc.devRef .tc main_arg4) := StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg4) := W1_of_ne m ρ c main_arg4 (by decide)
    _ = m ((c : Thread nD τ).loc main_arg4) := rfl

/-- After the second region its output window's array holds what the one write-back left there. -/
theorem exit1_main_v2 (c : Dev nD) : V3 m ρ c main_v2 = (dat1 (V2 m ρ) c).arrAt 5 cfg1.N := W3_arr m ρ c 5

/-- The third region finds in its second operand the [16,256,1,1] cast of the second region's [16,256] result. -/
theorem entry2_main_v3 (c : Dev nD) :
    V4 m ρ c main_v3 = shapeCast S16x256x1x1 (V3 m ρ c main_v2) shapeCasts_S16x256_S16x256x1x1 := by
  show StableHlo.after hostOps2 (W3 m ρ c) (Proc.devRef .tc main_v3) = _
  after_results
  rfl

/-- The third region finds the first argument as launched: the first region only reads it, the second does not
    touch it, and neither reshape writes it. -/
theorem entry2_main_arg0 (c : Dev nD) : V4 m ρ c main_arg0 = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg0) := W3_of_ne m ρ c main_arg0 (by decide)
    _ = W1 m ρ c (Proc.devRef .tc main_arg0) := StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

end Cert.KernelIdeal.Run

end
-- ==== Proof.GateScaleRegions.lean ====
/- What the gate region and the scaling region leave in their output arrays, each as one function of the arrays the
   region finds when it is entered.

   The gate region has one grid point and every window's block is its whole array, so its one write-back leaves the
   body's result of the five whole operands. The scaling region walks the 256 channels eight at a time: at point t it
   multiplies the [16,8,128,128] block of the activations at channels 8t … 8t+7 by the [16,8,1,1] block of the gate
   at the same channels, spread over the two spatial axes; the 32 blocks tile the output, which therefore ends at the
   activations times the gate of the same batch row and channel, index by index. -/
import proofs.«128204_j14757507629900_1_alg».proof.Proof.Gen.KernelIdeal.Frame
import Idealize.ShloMosaic.Lib.Pipeline.Value
import Idealize.ShloMosaic.Lib.ValueIdx

set_option maxRecDepth 16384

noncomputable section

namespace Cert.KernelIdeal.Run

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

theorem zeros1 : (![0] : Fin 1 → Nat) = fun _ => 0 := funext fun a => by fin_cases a <;> rfl
theorem zeros2 : (![0, 0] : Fin 2 → Nat) = fun _ => 0 := funext fun a => by fin_cases a <;> rfl
theorem zeros4 : (![0, 0, 0, 0] : Fin 4 → Nat) = fun _ => 0 := funext fun a => by fin_cases a <;> rfl

/-! ## The gate region -/

/-- Every index map of the gate region is constantly zero. -/
theorem gate_index : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0 :=
  (by decide +kernel : ∀ t : Fin grid1.N, _)

/-- So each operand's block is the operand's whole array. -/
theorem gate_in0 (c : Dev nD) (t : Fin cfg1.N) :
    (iblk1 V c 0 t : Vec F S16x256 .f32) = (V c main_v1 : S16x256.Idx → Elt F .f32) := by
  obtain ⟨e00, e01, e10, e11, e20, e30, e31, e40, e50, e51⟩ := gate_index t
  funext y
  unfold iblk1
  rw [View.read_apply]
  refine congrArg (V c main_v1 : S16x256.Idx → Elt F .f32) (funext fun a => Fin.ext ?_)
  match a with
  | ⟨0, _⟩ => show win1_0.index t (0 : Fin 2) * 16 + 1 * (y 0).val = (y 0).val; omega
  | ⟨1, _⟩ => show win1_0.index t (1 : Fin 2) * 256 + 1 * (y 1).val = (y 1).val; omega

theorem gate_in1 (c : Dev nD) (t : Fin cfg1.N) :
    (iblk1 V c 1 t : Vec F S16x256 .f32) = (V c main_arg1 : S16x256.Idx → Elt F .f32) := by
  obtain ⟨e00, e01, e10, e11, e20, e30, e31, e40, e50, e51⟩ := gate_index t
  funext y
  unfold iblk1
  rw [View.read_apply]
  refine congrArg (V c main_arg1 : S16x256.Idx → Elt F .f32) (funext fun a => Fin.ext ?_)
  match a with
  | ⟨0, _⟩ => show win1_1.index t (0 : Fin 2) * 16 + 1 * (y 0).val = (y 0).val; omega
  | ⟨1, _⟩ => show win1_1.index t (1 : Fin 2) * 256 + 1 * (y 1).val = (y 1).val; omega

theorem gate_in2 (c : Dev nD) (t : Fin cfg1.N) :
    (iblk1 V c 2 t : Vec F S16 .f32) = (V c main_arg2 : S16.Idx → Elt F .f32) := by
  obtain ⟨e00, e01, e10, e11, e20, e30, e31, e40, e50, e51⟩ := gate_index t
  funext y
  unfold iblk1
  rw [View.read_apply]
  refine congrArg (V c main_arg2 : S16.Idx → Elt F .f32) (funext fun a => Fin.ext ?_)
  match a with
  | ⟨0, _⟩ => show win1_2.index t (0 : Fin 1) * 16 + 1 * (y 0).val = (y 0).val; omega

theorem gate_in3 (c : Dev nD) (t : Fin cfg1.N) :
    (iblk1 V c 3 t : Vec F S256x16 .f32) = (V c main_arg3 : S256x16.Idx → Elt F .f32) := by
  obtain ⟨e00, e01, e10, e11, e20, e30, e31, e40, e50, e51⟩ := gate_index t
  funext y
  unfold iblk1
  rw [View.read_apply]
  refine congrArg (V c main_arg3 : S256x16.Idx → Elt F .f32) (funext fun a => Fin.ext ?_)
  match a with
  | ⟨0, _⟩ => show win1_3.index t (0 : Fin 2) * 256 + 1 * (y 0).val = (y 0).val; omega
  | ⟨1, _⟩ => show win1_3.index t (1 : Fin 2) * 16 + 1 * (y 1).val = (y 1).val; omega

theorem gate_in4 (c : Dev nD) (t : Fin cfg1.N) :
    (iblk1 V c 4 t : Vec F S256 .f32) = (V c main_arg4 : S256.Idx → Elt F .f32) := by
  obtain ⟨e00, e01, e10, e11, e20, e30, e31, e40, e50, e51⟩ := gate_index t
  funext y
  unfold iblk1
  rw [View.read_apply]
  refine congrArg (V c main_arg4 : S256.Idx → Elt F .f32) (funext fun a => Fin.ext ?_)
  match a with
  | ⟨0, _⟩ => show win1_4.index t (0 : Fin 1) * 256 + 1 * (y 0).val = (y 0).val; omega

/-- The output window's block is the whole [16,256] result array too. -/
theorem gate_out (t : Fin cfg1.N) (G : S16x256.Idx → Elt F .f32) :
    ((cfg1.win 5).blk t).view.read (Elt F) G = G := by
  obtain ⟨e00, e01, e10, e11, e20, e30, e31, e40, e50, e51⟩ := gate_index t
  funext y
  rw [View.read_apply]
  refine congrArg G (funext fun a => Fin.ext ?_)
  match a with
  | ⟨0, _⟩ => show win1_5.index t (0 : Fin 2) * 16 + 1 * (y 0).val = (y 0).val; omega
  | ⟨1, _⟩ => show win1_5.index t (1 : Fin 2) * 256 + 1 * (y 1).val = (y 1).val; omega

/-- What the gate region's point writes back: the body's result of the five whole operands. -/
theorem gate_flushed (c : Dev nD) (t : Fin cfg1.N) :
    (dat1 V c).flushed 5 t = ((cfg1.win 5).blk t).view.read (Elt F)
      (k1_pay1 (V c main_v1) (V c main_arg1) (V c main_arg2) (V c main_arg3) (V c main_arg4)) := by
  show (cfg1.win 5).cut (grid1.coords t) ((dat1 V c).after 5 t) = _
  rw [after1_5, gate_out]
  unfold out1_5
  rw [View.canon_unit_zero zeros2]
  simp only [View.ld_unit_zero (S := S16x256) zeros2, View.ld_unit_zero (S := S16) zeros1,
    View.ld_unit_zero (S := S256x16) zeros2, View.ld_unit_zero (S := S256) zeros1]
  rw [gate_in0, gate_in1, gate_in2, gate_in3, gate_in4]
  rfl

/-- Some point's block holds any given index of the result array. -/
theorem gate_cover (i : S16x256.Idx) :
    ∃ t : Fin cfg1.N, (cfg1.win 5).flush t = true ∧ i ∈ ((cfg1.win 5).blk t).view.set := by
  obtain ⟨t⟩ : Nonempty (Fin cfg1.N) := ⟨⟨0, (by decide +kernel : 0 < grid1.N)⟩⟩
  obtain ⟨e00, e01, e10, e11, e20, e30, e31, e40, e50, e51⟩ := gate_index t
  refine ⟨t, flush1_5 t, ?_⟩
  show i ∈ ((View.whole main_v2).slice (win1_5.rect t)).set
  rw [View.set_slice_whole, Rect.mem_set_unit]
  intro a
  have h0 : (i 0).val < 16 := (i 0).isLt
  have h1 : (i 1).val < 256 := (i 1).isLt
  match a with
  | ⟨0, _⟩ => show win1_5.index t (0 : Fin 2) * 16 ≤ (i 0).val ∧ (i 0).val < win1_5.index t (0 : Fin 2) * 16 + 16; omega
  | ⟨1, _⟩ => show win1_5.index t (1 : Fin 2) * 256 ≤ (i 1).val ∧ (i 1).val < win1_5.index t (1 : Fin 2) * 256 + 256; omega

/-- THE GATE ARRAY after the region: the body's result of the five operand arrays as the region found them. -/
theorem gate_final (c : Dev nD) :
    (dat1 V c).arrAt 5 cfg1.N = k1_pay1 (V c main_v1) (V c main_arg1) (V c main_arg2) (V c main_arg3) (V c main_arg4) :=
  (dat1 V c).arrAt_eq_of_cover 5 _ (fun t _ => gate_flushed V c t) gate_cover

/-! ## The scaling region -/

/-- The activations times the gate of the same batch row and channel. -/
def scaled (x : S16x256x128x128.Idx → Elt F .f32) (s : S16x256x1x1.Idx → Elt F .f32) : S16x256x128x128.Idx → Elt F .f32 :=
  fun i => FloatOps.mulf (x i) (s (ix4 (⟨(i 0).val, (i 0).isLt⟩ : Fin 16) (⟨(i 1).val, (i 1).isLt⟩ : Fin 256) (0 : Fin 1) (0 : Fin 1)))

/-- The scaling region's three index maps: block index t on the channel axis, zero elsewhere. -/
theorem scale_index : ∀ t : Fin cfg2.N,
    win2_0.index t (0 : Fin 4) = 0 ∧ win2_0.index t (1 : Fin 4) = t.val ∧ win2_0.index t (2 : Fin 4) = 0 ∧ win2_0.index t (3 : Fin 4) = 0
    ∧ win2_1.index t (0 : Fin 4) = 0 ∧ win2_1.index t (1 : Fin 4) = t.val ∧ win2_1.index t (2 : Fin 4) = 0 ∧ win2_1.index t (3 : Fin 4) = 0
    ∧ win2_2.index t (0 : Fin 4) = 0 ∧ win2_2.index t (1 : Fin 4) = t.val ∧ win2_2.index t (2 : Fin 4) = 0 ∧ win2_2.index t (3 : Fin 4) = 0 :=
  (by decide +kernel : ∀ t : Fin grid2.N, _)

/-- The body's payload at an index: the activation there times the gate block's entry of the same row and channel. -/
theorem scale_pay (xb : Vec F S16x8x128x128 .f32) (sb : Vec F S16x8x1x1 .f32) (y : S16x8x128x128.Idx) :
    k2_pay1 xb sb y = FloatOps.mulf (xb y) (sb (ix4 (⟨(y 0).val, (y 0).isLt⟩ : Fin 16) (⟨(y 1).val, (y 1).isLt⟩ : Fin 8) (0 : Fin 1) (0 : Fin 1))) := by
  unfold k2_pay1
  dsimp only
  rw [shapeCast_self]
  show FloatOps.mulf (xb y) (broadcastTo S16x8x128x128 sb broadcasts_S16x8x1x1_S16x8x128x128 y) = _
  refine congrArg (FloatOps.mulf (xb y)) (broadcastTo_apply sb _ y _ fun a => ?_)
  match a with
  | ⟨0, _⟩ => show (y 0).val = if (16 : Nat) = 1 then 0 else (y 0).val; rw [if_neg (by decide)]
  | ⟨1, _⟩ => show (y 1).val = if (8 : Nat) = 1 then 0 else (y 1).val; rw [if_neg (by decide)]
  | ⟨2, _⟩ => show 0 = if (1 : Nat) = 1 then 0 else (y 2).val; rw [if_pos rfl]
  | ⟨3, _⟩ => show 0 = if (1 : Nat) = 1 then 0 else (y 3).val; rw [if_pos rfl]

/-- The activations' block at point t is channels 8t … 8t+7 of the array. -/
theorem scale_in0 (c : Dev nD) (t : Fin cfg2.N) (y : S16x8x128x128.Idx) (k : S16x256x128x128.Idx)
    (h0 : (k 0).val = (y 0).val) (h1 : (k 1).val = 8 * t.val + (y 1).val) (h2 : (k 2).val = (y 2).val) (h3 : (k 3).val = (y 3).val) :
    (iblk2 V c 0 t : Vec F S16x8x128x128 .f32) y = (V c main_arg0 : S16x256x128x128.Idx → Elt F .f32) k := by
  obtain ⟨e00, e01, e02, e03, -⟩ := scale_index t
  unfold iblk2
  rw [View.read_apply]
  refine congrArg (V c main_arg0 : S16x256x128x128.Idx → Elt F .f32) (funext fun a => Fin.ext ?_)
  match a with
  | ⟨0, _⟩ => show win2_0.index t (0 : Fin 4) * 16 + 1 * (y 0).val = (k 0).val; omega
  | ⟨1, _⟩ => show win2_0.index t (1 : Fin 4) * 8 + 1 * (y 1).val = (k 1).val; omega
  | ⟨2, _⟩ => show win2_0.index t (2 : Fin 4) * 128 + 1 * (y 2).val = (k 2).val; omega
  | ⟨3, _⟩ => show win2_0.index t (3 : Fin 4) * 128 + 1 * (y 3).val = (k 3).val; omega

/-- The gate's block at point t is channels 8t … 8t+7 of the [16,256,1,1] gate array. -/
theorem scale_in1 (c : Dev nD) (t : Fin cfg2.N) (y : S16x8x1x1.Idx) (k : S16x256x1x1.Idx)
    (h0 : (k 0).val = (y 0).val) (h1 : (k 1).val = 8 * t.val + (y 1).val) (h2 : (k 2).val = (y 2).val) (h3 : (k 3).val = (y 3).val) :
    (iblk2 V c 1 t : Vec F S16x8x1x1 .f32) y = (V c main_v3 : S16x256x1x1.Idx → Elt F .f32) k := by
  obtain ⟨-, -, -, -, e10, e11, e12, e13, -⟩ := scale_index t
  unfold iblk2
  rw [View.read_apply]
  refine congrArg (V c main_v3 : S16x256x1x1.Idx → Elt F .f32) (funext fun a => Fin.ext ?_)
  match a with
  | ⟨0, _⟩ => show win2_1.index t (0 : Fin 4) * 16 + 1 * (y 0).val = (k 0).val; omega
  | ⟨1, _⟩ => show win2_1.index t (1 : Fin 4) * 8 + 1 * (y 1).val = (k 1).val; omega
  | ⟨2, _⟩ => show win2_1.index t (2 : Fin 4) * 1 + 1 * (y 2).val = (k 2).val; omega
  | ⟨3, _⟩ => show win2_1.index t (3 : Fin 4) * 1 + 1 * (y 3).val = (k 3).val; omega

/-- WHAT POINT t WRITES BACK: block t of the activations times the gate. -/
theorem scale_flushed (c : Dev nD) (t : Fin cfg2.N) :
    (dat2 V c).flushed 2 t = ((cfg2.win 2).blk t).view.read (Elt F) (scaled (V c main_arg0) (V c main_v3)) := by
  obtain ⟨-, -, -, -, -, -, -, -, e20, e21, e22, e23⟩ := scale_index t
  show (cfg2.win 2).cut (grid2.coords t) ((dat2 V c).after 2 t) = _
  rw [after2_2]
  unfold out2_2
  rw [View.canon_unit_zero zeros4]
  simp only [View.ld_unit_zero (S := S16x8x128x128) zeros4, View.ld_unit_zero (S := S16x8x1x1) zeros4]
  funext y
  rw [View.read_apply]
  show k2_pay1 (iblk2 V c 0 t) (iblk2 V c 1 t) y = scaled (V c main_arg0) (V c main_v3) (((cfg2.win 2).blk t).view.emb y)
  refine (scale_pay (iblk2 V c 0 t) (iblk2 V c 1 t) y).trans ?_
  unfold scaled
  have hy0 : ((((cfg2.win 2).blk t).view.emb y) 0).val = (y 0).val := by
    show win2_2.index t (0 : Fin 4) * 16 + 1 * (y 0).val = (y 0).val; omega
  have hy1 : ((((cfg2.win 2).blk t).view.emb y) 1).val = 8 * t.val + (y 1).val := by
    show win2_2.index t (1 : Fin 4) * 8 + 1 * (y 1).val = 8 * t.val + (y 1).val; omega
  have hy2 : ((((cfg2.win 2).blk t).view.emb y) 2).val = (y 2).val := by
    show win2_2.index t (2 : Fin 4) * 128 + 1 * (y 2).val = (y 2).val; omega
  have hy3 : ((((cfg2.win 2).blk t).view.emb y) 3).val = (y 3).val := by
    show win2_2.index t (3 : Fin 4) * 128 + 1 * (y 3).val = (y 3).val; omega
  refine congrArg₂ FloatOps.mulf (scale_in0 V c t y _ hy0 hy1 hy2 hy3) (scale_in1 V c t _ _ ?_ ?_ rfl rfl)
  · exact hy0
  · exact hy1

/-- Every index of the output array is in the block of the point that holds its channel. -/
theorem scale_cover (i : S16x256x128x128.Idx) :
    ∃ t : Fin cfg2.N, (cfg2.win 2).flush t = true ∧ i ∈ ((cfg2.win 2).blk t).view.set := by
  have h0 : (i 0).val < 16 := (i 0).isLt
  have h1 : (i 1).val < 256 := (i 1).isLt
  have h2 : (i 2).val < 128 := (i 2).isLt
  have h3 : (i 3).val < 128 := (i 3).isLt
  have hN : cfg2.N = 32 := by decide +kernel
  let t : Fin cfg2.N := ⟨(i 1).val / 8, by rw [hN]; omega⟩
  obtain ⟨-, -, -, -, -, -, -, -, e20, e21, e22, e23⟩ := scale_index t
  have ht : t.val = (i 1).val / 8 := rfl
  refine ⟨t, flush2_2 t, ?_⟩
  show i ∈ ((View.whole main_v4).slice (win2_2.rect t)).set
  rw [View.set_slice_whole, Rect.mem_set_unit]
  intro a
  match a with
  | ⟨0, _⟩ => show win2_2.index t (0 : Fin 4) * 16 ≤ (i 0).val ∧ (i 0).val < win2_2.index t (0 : Fin 4) * 16 + 16; omega
  | ⟨1, _⟩ => show win2_2.index t (1 : Fin 4) * 8 ≤ (i 1).val ∧ (i 1).val < win2_2.index t (1 : Fin 4) * 8 + 8; omega
  | ⟨2, _⟩ => show win2_2.index t (2 : Fin 4) * 128 ≤ (i 2).val ∧ (i 2).val < win2_2.index t (2 : Fin 4) * 128 + 128; omega
  | ⟨3, _⟩ => show win2_2.index t (3 : Fin 4) * 128 ≤ (i 3).val ∧ (i 3).val < win2_2.index t (3 : Fin 4) * 128 + 128; omega

/-- THE OUTPUT ARRAY after the region: the activations times the gate, as the region found them. -/
theorem scale_final (c : Dev nD) :
    (dat2 V c).arrAt 2 cfg2.N = scaled (V c main_arg0) (V c main_v3) :=
  (dat2 V c).arrAt_eq_of_cover 2 _ (fun t _ => scale_flushed V c t) scale_cover

end Cert.KernelIdeal.Run

end
-- ==== Proof.PoolValue.lean ====
/- The spatial mean, read at an index on both sides, at the ideal values.

   The kernel's pooling body sums a [16,16,128,128] block over its last axis, then over the axis before it, and
   multiplies by the word 0x38800000 = 2⁻¹⁴; the reference sums the whole [16,256,128,128] array over both spatial axes
   at once (from an initial 0) and divides by the word 0x46800000 = 2¹⁴. At (b, c) both are the double sum over the
   128·128 positions times 2⁻¹⁴: a sum over two axes is the iterated sum (the indices that drop to (b,c) are the
   (b,c,h,w)), and on every extended real a quotient by 16384 is the product with 1/16384. -/
import proofs.«128204_j14757507629900_1_alg».proof.Proof.Gen.KernelIdeal.Skeleton
import proofs.«128204_j14757507629900_1_alg».proof.Proof.Gen.ReferenceIdeal.Read
import Idealize.ShloMosaic.PureOps.Ideal.Laws
import Idealize.ShloMosaic.Lib.ValueIdx
import Idealize.ShloMosaic.Lib.Pipeline.Value

noncomputable section

namespace Cert.Bridge

open Idealize.ShloMosaic Idealize.ShloMosaic.ValueIdx

/-- The word `0x46800000` has exponent field 141 and a zero fraction: it denotes `2^14 = 16384`. -/
private theorem ofBits_16384 : Ideal.ofBits .f32 0x46800000#32 = ((16384 : ℝ) : EReal) := by
  simp [Ideal.ofBits, Ideal.ieee, -EReal.coe_mul]; norm_num

/-- The word `0x38800000` has exponent field 113 and a zero fraction: it denotes `2^(-14) = 1/16384`. -/
private theorem ofBits_inv16384 : Ideal.ofBits .f32 0x38800000#32 = ((1 / 16384 : ℝ) : EReal) := by
  simp [Ideal.ofBits, Ideal.ieee, -EReal.coe_mul]; norm_num

section Kernel
open Cert.KernelIdeal

/-- A `[16,16,1]` array viewed as `[16,16,1,1]`: the element at `(b,c,0,0)` is the one at `(b,c,0)`
    (both sit at row-major position `16 b + c`). -/
private theorem cast_unit_apply {α : Type} (v : S16x16x1.Idx → α) (h : S16x16x1.ShapeCasts S16x16x1x1) (b c : Fin 16) :
    shapeCast S16x16x1x1 v h (ix4 b c 0 0) = v (ix3 b c 0) :=
  shapeCast_apply v h _ _ (by
    rw [Shape.rowMajor_val_three, Shape.rowMajor_val_four]
    show (b.val * 16 + c.val) * 1 + 0 = ((b.val * 16 + c.val) * 1 + 0) * 1 + 0
    omega)

/-- A `[16,16,128]` array viewed as `[16,16,128,1]`: the element at `(b,c,k,0)` is the one at `(b,c,k)`. -/
private theorem cast_row_apply {α : Type} (v : S16x16x128.Idx → α) (h : S16x16x128.ShapeCasts S16x16x128x1)
    (b c : Fin 16) (k : Fin 128) :
    shapeCast S16x16x128x1 v h (ix4 b c k 0) = v (ix3 b c k) :=
  shapeCast_apply v h _ _ (by
    rw [Shape.rowMajor_val_three, Shape.rowMajor_val_four]
    show (b.val * 16 + c.val) * 128 + k.val = ((b.val * 16 + c.val) * 128 + k.val) * 1 + 0
    omega)

/-- Over the reduced index `(b,c,0)` of `[16,16,1]`, the source index of `[16,16,128,1]` with coordinate `k` on
    the summed axis 2 is `(b,c,k,0)`. -/
private theorem lift_axis2 (h : S16x16x128x1.Reduces [2] S16x16x1) (b c : Fin 16) (k : Fin 128) :
    h.lift (ix3 b c 0) k = ix4 b c k 0 := by
  funext a; apply Fin.ext
  match a with
  | ⟨0, _⟩ => rfl
  | ⟨1, _⟩ => rfl
  | ⟨2, _⟩ => rfl
  | ⟨3, _⟩ => rfl

/-- Over the reduced index `(b,c,k)` of `[16,16,128]`, the source index of `[16,16,128,128]` with coordinate `w` on
    the summed axis 3 is `(b,c,k,w)`. -/
private theorem lift_axis3 (h : S16x16x128x128.Reduces [3] S16x16x128) (b c : Fin 16) (k w : Fin 128) :
    h.lift (ix3 b c k) w = ix4 b c k w := by
  funext a; apply Fin.ext
  match a with
  | ⟨0, _⟩ => rfl
  | ⟨1, _⟩ => rfl
  | ⟨2, _⟩ => rfl
  | ⟨3, _⟩ => rfl

end Kernel

theorem poolK_apply (blk : FVec Ideal Cert.KernelIdeal.S16x16x128x128 .f32) (b c : Fin 16) :
    Cert.KernelIdeal.Gen.k0_pay1 (F := Ideal) blk (ix4 b c 0 0)
      = (∑ h : Fin 128, ∑ w : Fin 128, blk (ix4 b c h w)) * Ideal.ofBits .f32 0x38800000#32 := by
  unfold Cert.KernelIdeal.Gen.k0_pay1
  simp only []
  rw [mulf_apply, broadcast_apply, Ideal.ofBits_def, cast_unit_apply]
  congr 1
  refine (Ideal.multiReduction_add_single _ _ _ _ _ _).trans ?_
  refine Finset.sum_congr rfl fun k _ => ?_
  refine (congrArg _ (lift_axis2 _ b c k)).trans ?_
  refine (cast_row_apply _ _ b c k).trans ?_
  refine (Ideal.multiReduction_add_single _ _ _ _ _ _).trans ?_
  refine Finset.sum_congr rfl fun w _ => ?_
  exact congrArg blk (lift_axis3 _ b c k w)

section Reference
open Cert.ReferenceIdeal

/-- Dropping the axes 2 and 3 of an index of `[16,256,128,128]` keeps its first two coordinates. -/
private theorem drop_eq (h : S16x256x128x128.ReducesTo [2, 3] S16x256) (i : S16x256x128x128.Idx) :
    h.drop i = ix2 (i 0) (i 1) := by
  funext a; apply Fin.ext
  match a with
  | ⟨0, _⟩ => rfl
  | ⟨1, _⟩ => rfl

/-- The host's sum over the axes 2 and 3, read at `(b,c)`: the indices that drop to `(b,c)` are exactly the
    `(b,c,p,q)`, in bijection with the pairs `(p,q)`, so the sum over them is the double sum over `p` and `q`. -/
private theorem hostReduceAdd_fiber (h : S16x256x128x128.ReducesTo [2, 3] S16x256) (x : S16x256x128x128.Idx → EReal)
    (init : EReal) (b : Fin 16) (c : Fin 256) :
    Ideal.hostReduceAdd h x init (ix2 b c) = init + ∑ p : Fin 128, ∑ q : Fin 128, x (ix4 b c p q) := by
  unfold Ideal.hostReduceAdd
  congr 1
  refine Eq.trans ?_ (Fintype.sum_prod_type' (fun p q : Fin 128 => x (ix4 b c p q)))
  symm
  refine Finset.sum_nbij' (fun pq => ix4 b c pq.1 pq.2) (fun i => (i 2, i 3)) ?_ ?_ ?_ ?_ ?_
  · intro pq _
    simp only [Finset.mem_filter, Finset.mem_univ, true_and]
    rw [drop_eq]
    rfl
  · intro i _
    exact Finset.mem_univ _
  · intro pq _
    rfl
  · intro i hi
    simp only [Finset.mem_filter, Finset.mem_univ, true_and] at hi
    rw [drop_eq] at hi
    have h0 : i 0 = b := congrFun hi 0
    have h1 : i 1 = c := congrFun hi 1
    subst h0 h1
    exact (eq_ix4 i).symm
  · intro pq _
    rfl

end Reference

theorem poolR_apply (x : FVec Ideal Cert.ReferenceIdeal.S16x256x128x128 .f32) (b : Fin 16) (c : Fin 256) :
    Cert.ReferenceIdeal.Read.val_main_v2 (F := Ideal) x (ix2 b c)
      = (∑ h : Fin 128, ∑ w : Fin 128, x (ix4 b c h w)) * Ideal.ofBits .f32 0x38800000#32 := by
  have hv0 : Cert.ReferenceIdeal.Read.val_main_v0 (F := Ideal) x (ix2 b c)
      = ∑ p : Fin 128, ∑ q : Fin 128, x (ix4 b c p q) := by
    unfold Cert.ReferenceIdeal.Read.val_main_v0 Host.reduceAdd
    rw [Ideal.hostReduceAdd_def, hostReduceAdd_fiber, Cert.ReferenceIdeal.Read.val_main_cst_apply, Ideal.ofBits_def,
      Ideal.ofBits_zero_f32, zero_add]
  rw [Cert.ReferenceIdeal.Read.val_main_v2_apply, Cert.ReferenceIdeal.Read.val_main_v1_apply,
    Cert.ReferenceIdeal.Read.val_main_cst_0_apply, Ideal.hostDivf_def, Ideal.ofBits_def, hv0, ofBits_16384,
    ofBits_inv16384, Ideal.div_coe (by norm_num : (16384 : ℝ) ≠ 0)]

end Cert.Bridge

end
-- ==== Proof.PoolRegion.lean ====
/- What the pooling region leaves in its output array, as one function of the activations it finds.

   The region walks the 256 channels sixteen at a time: at point t its body sums the [16,16,128,128] block of the
   activations at channels 16t … 16t+15 over the last axis and then over the axis before it and multiplies by 2⁻¹⁴,
   leaving a [16,16,1,1] block of means. The 16 blocks tile the [16,256,1,1] output, which therefore ends holding,
   at (b, c, 0, 0), the mean over the 128·128 spatial positions of the activations of batch row b and channel c. -/
import proofs.«128204_j14757507629900_1_alg».proof.Proof.GateScaleRegions
import proofs.«128204_j14757507629900_1_alg».proof.Proof.PoolValue

set_option maxRecDepth 16384

noncomputable section

namespace Cert.KernelIdeal.Run

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The mean over the two spatial axes, laid out as the pooling region writes it: [16,256,1,1]. The factor is
    the word the kernel multiplies by, 2⁻¹⁴ = 1/(128·128), kept as printed. -/
def pooled4 (x : S16x256x128x128.Idx → EReal) : S16x256x1x1.Idx → EReal :=
  fun i => (∑ h : Fin 128, ∑ w : Fin 128,
      x (ix4 (⟨(i 0).val, (i 0).isLt⟩ : Fin 16) (⟨(i 1).val, (i 1).isLt⟩ : Fin 256) h w)) * Ideal.ofBits .f32 0x38800000#32

/-- The pooling region's two index maps: block index t on the channel axis, zero elsewhere. -/
theorem pool_index : ∀ t : Fin cfg0.N,
    win0_0.index t (0 : Fin 4) = 0 ∧ win0_0.index t (1 : Fin 4) = t.val ∧ win0_0.index t (2 : Fin 4) = 0 ∧ win0_0.index t (3 : Fin 4) = 0
    ∧ win0_1.index t (0 : Fin 4) = 0 ∧ win0_1.index t (1 : Fin 4) = t.val ∧ win0_1.index t (2 : Fin 4) = 0 ∧ win0_1.index t (3 : Fin 4) = 0 :=
  (by decide +kernel : ∀ t : Fin grid0.N, _)

/-- The activations' block at point t is channels 16t … 16t+15 of the array. -/
theorem pool_in0 (c : Dev nD) (t : Fin cfg0.N) (y : S16x16x128x128.Idx) (k : S16x256x128x128.Idx)
    (h0 : (k 0).val = (y 0).val) (h1 : (k 1).val = 16 * t.val + (y 1).val) (h2 : (k 2).val = (y 2).val) (h3 : (k 3).val = (y 3).val) :
    (iblk0 V c 0 t : Vec Ideal S16x16x128x128 .f32) y = (V c main_arg0 : S16x256x128x128.Idx → EReal) k := by
  obtain ⟨e00, e01, e02, e03, -⟩ := pool_index t
  unfold iblk0
  rw [View.read_apply]
  refine congrArg (V c main_arg0 : S16x256x128x128.Idx → EReal) (funext fun a => Fin.ext ?_)
  match a with
  | ⟨0, _⟩ => show win0_0.index t (0 : Fin 4) * 16 + 1 * (y 0).val = (k 0).val; omega
  | ⟨1, _⟩ => show win0_0.index t (1 : Fin 4) * 16 + 1 * (y 1).val = (k 1).val; omega
  | ⟨2, _⟩ => show win0_0.index t (2 : Fin 4) * 128 + 1 * (y 2).val = (k 2).val; omega
  | ⟨3, _⟩ => show win0_0.index t (3 : Fin 4) * 128 + 1 * (y 3).val = (k 3).val; omega

/-- The body's result at an entry of point t's output block is the mean of the array's channel 16t + (that entry's
    channel), of the same batch row. -/
theorem pool_point (c : Dev nD) (t : Fin cfg0.N) (y : S16x16x1x1.Idx) (k : S16x256x1x1.Idx)
    (hk0 : (k 0).val = (y 0).val) (hk1 : (k 1).val = 16 * t.val + (y 1).val) :
    k0_pay1 (F := Ideal) (iblk0 V c 0 t) y = pooled4 (V c main_arg0) k := by
  obtain ⟨b, c', u, v, rfl⟩ : ∃ (b c' : Fin 16) (u v : Fin 1), y = ix4 b c' u v := ⟨y 0, y 1, y 2, y 3, eq_ix4 y⟩
  obtain rfl : u = 0 := Subsingleton.elim _ _
  obtain rfl : v = 0 := Subsingleton.elim _ _
  refine (Cert.Bridge.poolK_apply (iblk0 V c 0 t) b c').trans ?_
  unfold pooled4
  refine congrArg (· * Ideal.ofBits .f32 0x38800000#32) ?_
  refine Finset.sum_congr rfl fun h _ => Finset.sum_congr rfl fun w _ => ?_
  exact pool_in0 V c t (ix4 b c' h w) _ hk0 hk1 rfl rfl

/-- WHAT POINT t WRITES BACK: block t of the means. -/
theorem pool_flushed (c : Dev nD) (t : Fin cfg0.N) :
    (dat0 V c).flushed 1 t = ((cfg0.win 1).blk t).view.read (Elt Ideal) (pooled4 (V c main_arg0)) := by
  obtain ⟨-, -, -, -, e10, e11, e12, e13⟩ := pool_index t
  show (cfg0.win 1).cut (grid0.coords t) ((dat0 V c).after 1 t) = _
  rw [after0_1]
  unfold out0_1
  rw [View.canon_unit_zero zeros4]
  simp only [View.ld_unit_zero (S := S16x16x128x128) zeros4]
  funext y
  rw [View.read_apply]
  show k0_pay1 (iblk0 V c 0 t) y = pooled4 (V c main_arg0) (((cfg0.win 1).blk t).view.emb y)
  refine pool_point V c t y _ ?_ ?_
  · show win0_1.index t (0 : Fin 4) * 16 + 1 * (y 0).val = (y 0).val; omega
  · show win0_1.index t (1 : Fin 4) * 16 + 1 * (y 1).val = 16 * t.val + (y 1).val; omega

/-- Every index of the [16,256,1,1] array is in the block of the point that holds its channel. -/
theorem pool_cover (i : S16x256x1x1.Idx) :
    ∃ t : Fin cfg0.N, (cfg0.win 1).flush t = true ∧ i ∈ ((cfg0.win 1).blk t).view.set := by
  have h0 : (i 0).val < 16 := (i 0).isLt
  have h1 : (i 1).val < 256 := (i 1).isLt
  have h2 : (i 2).val < 1 := (i 2).isLt
  have h3 : (i 3).val < 1 := (i 3).isLt
  have hN : cfg0.N = 16 := by decide +kernel
  let t : Fin cfg0.N := ⟨(i 1).val / 16, by rw [hN]; omega⟩
  obtain ⟨-, -, -, -, e10, e11, e12, e13⟩ := pool_index t
  have ht : t.val = (i 1).val / 16 := rfl
  refine ⟨t, flush0_1 t, ?_⟩
  show i ∈ ((View.whole main_v0).slice (win0_1.rect t)).set
  rw [View.set_slice_whole, Rect.mem_set_unit]
  intro a
  match a with
  | ⟨0, _⟩ => show win0_1.index t (0 : Fin 4) * 16 ≤ (i 0).val ∧ (i 0).val < win0_1.index t (0 : Fin 4) * 16 + 16; omega
  | ⟨1, _⟩ => show win0_1.index t (1 : Fin 4) * 16 ≤ (i 1).val ∧ (i 1).val < win0_1.index t (1 : Fin 4) * 16 + 16; omega
  | ⟨2, _⟩ => show win0_1.index t (2 : Fin 4) * 1 ≤ (i 2).val ∧ (i 2).val < win0_1.index t (2 : Fin 4) * 1 + 1; omega
  | ⟨3, _⟩ => show win0_1.index t (3 : Fin 4) * 1 ≤ (i 3).val ∧ (i 3).val < win0_1.index t (3 : Fin 4) * 1 + 1; omega

/-- THE POOLED ARRAY after the region: the means of the activations as the region found them. -/
theorem pool_final (c : Dev nD) : (dat0 V c).arrAt 1 cfg0.N = pooled4 (V c main_arg0) :=
  (dat0 V c).arrAt_eq_of_cover 1 _ (fun t _ => pool_flushed V c t) pool_cover

end Cert.KernelIdeal.Run

end
-- ==== Proof.GateValue.lean ====
import proofs.«128204_j14757507629900_1_alg».proof.Proof.Gen.KernelIdeal.Skeleton
import proofs.«128204_j14757507629900_1_alg».proof.Proof.Gen.ReferenceIdeal.Read
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost

noncomputable section
namespace Cert.Bridge
open Idealize.ShloMosaic Idealize.ShloMosaic.ValueIdx

open Cert.ReferenceIdeal.Read

/-! The gate of the kernel against the reference's, at the ideal values. Both compute, from the pooled
means `p` ([16,256]), `sigmoid (leaky (p · w1ᵀ + b1) · w2ᵀ + b2)`. The two sides differ only in spelling:
the kernel's products accumulate into a zero array and the reference's do not; the kernel spreads a bias
along the rows by a reshape to one row and a broadcast, the reference by two broadcasts; the kernel's
sigmoid is one operation and the reference's is `1 / (1 + exp (-z))`. -/

/-- The contraction records of the two sides for the first product carry the same axes. -/
private theorem dotK1_eq :
    Cert.KernelIdeal.dot_S16x256_S16x256_S16x16_1_1_0_0_n_n = Cert.ReferenceIdeal.dot_S16x256_S16x256_S16x16_1_1_0_0_n_n := rfl

/-- Likewise for the second product. -/
private theorem dotK2_eq :
    Cert.KernelIdeal.dot_S16x16_S256x16_S16x256_1_1_0_0_n_n = Cert.ReferenceIdeal.dot_S16x16_S256x16_S16x256_1_1_0_0_n_n := rfl

/-- The first product: into a zero accumulator it is the sum over the contracted axis of the operands'
    products, which is what the reference's contraction is. -/
private theorem dot1_eq (p : FVec Ideal Cert.KernelIdeal.S16x256 .f32) (x1 : FVec Ideal Cert.KernelIdeal.S16x256 .f32) :
    matmul Cert.KernelIdeal.dot_S16x256_S16x256_S16x16_1_1_0_0_n_n (some ContractPrecision.fp32) p x1
          (constant (F := Ideal) Cert.KernelIdeal.S16x16 .f32 0x00000000#32)
      = Host.dotGeneral Cert.ReferenceIdeal.dot_S16x256_S16x256_S16x16_1_1_0_0_n_n none p x1 := by
  funext j
  simp only [matmul, Host.dotGeneral]
  rw [Ideal.matmul_constant_zero_apply, Ideal.dotGeneral_apply, dotK1_eq]

/-- The second product, the same way. -/
private theorem dot2_eq (h : FVec Ideal Cert.KernelIdeal.S16x16 .f32) (x3 : FVec Ideal Cert.KernelIdeal.S256x16 .f32) :
    matmul Cert.KernelIdeal.dot_S16x16_S256x16_S16x256_1_1_0_0_n_n (some ContractPrecision.fp32) h x3
          (constant (F := Ideal) Cert.KernelIdeal.S16x256 .f32 0x00000000#32)
      = Host.dotGeneral Cert.ReferenceIdeal.dot_S16x16_S256x16_S16x256_1_1_0_0_n_n none h x3 := by
  funext j
  simp only [matmul, Host.dotGeneral]
  rw [Ideal.matmul_constant_zero_apply, Ideal.dotGeneral_apply, dotK2_eq]

/-- The first bias spread along the rows: at `(p, q)` both sides read the bias at `q`. -/
private theorem bias1_eq (x2 : FVec Ideal Cert.KernelIdeal.S16 .f32) :
    broadcastTo Cert.KernelIdeal.S16x16 (shapeCast Cert.KernelIdeal.S1x16 x2 Cert.KernelIdeal.Gen.shapeCasts_S16_S1x16)
          Cert.KernelIdeal.Gen.broadcasts_S1x16_S16x16
      = val_main_v5 (F := Ideal) x2 := by
  funext j
  obtain ⟨p, q, rfl⟩ : ∃ p q, j = ix2 p q := ⟨j 0, j 1, eq_ix2 j⟩
  rw [broadcastTo_apply _ _ _ (ix2 (0 : Fin 1) q) (fun a => match a with
    | ⟨0, _⟩ => by show 0 = if (1 : Nat) = 1 then 0 else _; rw [if_pos rfl]
    | ⟨1, _⟩ => by show q.val = if (16 : Nat) = 1 then 0 else q.val; rw [if_neg (by decide)])]
  rw [shapeCast_a_1a_apply, val_main_v5_apply, val_main_v4_apply]
  exact congrArg x2 (funext fun a => match a with | ⟨0, _⟩ => rfl)

/-- The second bias spread along the rows: at `(p, q)` both sides read the bias at `q`. -/
private theorem bias2_eq (x4 : FVec Ideal Cert.KernelIdeal.S256 .f32) :
    broadcastTo Cert.KernelIdeal.S16x256 (shapeCast Cert.KernelIdeal.S1x256 x4 Cert.KernelIdeal.Gen.shapeCasts_S256_S1x256)
          Cert.KernelIdeal.Gen.broadcasts_S1x256_S16x256
      = val_main_v14 (F := Ideal) x4 := by
  funext j
  obtain ⟨p, q, rfl⟩ : ∃ p q, j = ix2 p q := ⟨j 0, j 1, eq_ix2 j⟩
  rw [broadcastTo_apply _ _ _ (ix2 (0 : Fin 1) q) (fun a => match a with
    | ⟨0, _⟩ => by show 0 = if (1 : Nat) = 1 then 0 else _; rw [if_pos rfl]
    | ⟨1, _⟩ => by show q.val = if (256 : Nat) = 1 then 0 else q.val; rw [if_neg (by decide)])]
  rw [shapeCast_a_1a_apply, val_main_v14_apply, val_main_v13_apply]
  exact congrArg x4 (funext fun a => match a with | ⟨0, _⟩ => rfl)

/-- The reference's array of zeros the hidden layer is compared with is the kernel's splat of the same word. -/
private theorem zero_eq :
    val_main_v7 (F := Ideal) = broadcast Cert.KernelIdeal.S16x16 (FloatOps.ofBits (F := Ideal) .f32 0x00000000#32) := by
  funext j
  rw [val_main_v7_apply, val_main_cst_1_apply]
  rfl

/-- The reference's array of the negative slope is the kernel's splat of the same word. -/
private theorem slope_eq :
    val_main_v9 (F := Ideal) = broadcast Cert.KernelIdeal.S16x16 (FloatOps.ofBits (F := Ideal) .f32 0x3C23D70A#32) := by
  funext j
  rw [val_main_v9_apply, val_main_cst_2_apply]
  rfl

theorem gate_eq (x0 : FVec Ideal Cert.ReferenceIdeal.S16x256x128x128 .f32) (x1 : FVec Ideal Cert.KernelIdeal.S16x256 .f32) (x2 : FVec Ideal Cert.KernelIdeal.S16 .f32) (x3 : FVec Ideal Cert.KernelIdeal.S256x16 .f32) (x4 : FVec Ideal Cert.KernelIdeal.S256 .f32) :
    Cert.KernelIdeal.Gen.k1_pay1 (F := Ideal) (Cert.ReferenceIdeal.Read.val_main_v2 (F := Ideal) x0) x1 x2 x3 x4
      = Cert.ReferenceIdeal.Read.val_main_v21 (F := Ideal) x0 x1 x2 x3 x4 := by
  funext i
  unfold Cert.KernelIdeal.Gen.k1_pay1
  -- each piece of the kernel's expression in the reference's spelling
  rw [shapeCast_self, dot1_eq, bias1_eq, dot2_eq, bias2_eq, ← zero_eq, ← slope_eq]
  -- what the sigmoid is applied to is now the reference's second layer before its sigmoid
  show FloatOps.logistic (F := Ideal) (φ := .f32) (val_main_v15 (F := Ideal) x0 x1 x2 x3 x4 i) = _
  rw [val_main_v21_apply, val_main_v20_apply, val_main_cst_4_apply, val_main_v19_apply, val_main_v18_apply,
    val_main_cst_3_apply, val_main_v17_apply, val_main_v16_apply]
  -- the word of the two constants is one, and the sigmoid is 1 / (1 + exp (-z)) by definition
  rw [Ideal.ofBits_def, Ideal.ofBits_one_f32]
  rfl

end Cert.Bridge
end
-- ==== Proof.ResultValue.lean ====
/- The kernel's result array is the reference's last stage of the launch arguments.

   Chained through the three regions and the two reshapes: the pooling region leaves the spatial means, whose
   [16,256] cast is the reference's mean stage (its sum over the two spatial axes divided by 16384 is the kernel's
   double sum times 2⁻¹⁴ on every extended real); the gate region leaves the body's result of those means and the four
   weight arguments, which is the reference's gate stage (a matrix product into a zero accumulator and the host's
   product are one sum, and the kernel's logistic is the host's 1/(1+e⁻ᶻ)); the scaling region leaves the activations
   times the [16,256,1,1] cast of that gate, which is the reference's product with the gate spread over the two
   spatial axes. -/
import proofs.«128204_j14757507629900_1_alg».proof.Proof.KernelRun
import proofs.«128204_j14757507629900_1_alg».proof.Proof.Boundaries
import proofs.«128204_j14757507629900_1_alg».proof.Proof.PoolRegion
import proofs.«128204_j14757507629900_1_alg».proof.Proof.GateValue

set_option maxRecDepth 16384

noncomputable section

namespace Cert.KernelIdeal.Run

open Cert.KernelIdeal Cert.KernelIdeal.Gen
open Idealize.ShloMosaic Idealize.ShloMosaic.TcCoe Idealize.SL.Sem Idealize.ShloMosaic.ValueIdx
open Idealize.ShloMosaic.Pipeline (Dat)

/-- The spatial means, cast from [16,256,1,1] to [16,256], are the reference's mean stage: position (b,c) of the one
    is position (b,c,0,0) of the other, and there both are the double sum times 2⁻¹⁴. -/
theorem pooled_cast (x : S16x256x128x128.Idx → EReal) :
    shapeCast S16x256 (pooled4 x) shapeCasts_S16x256x1x1_S16x256 = Cert.ReferenceIdeal.Read.val_main_v2 (F := Ideal) x := by
  funext j
  obtain ⟨b, c, rfl⟩ : ∃ (b : Fin 16) (c : Fin 256), j = ix2 b c := ⟨j 0, j 1, eq_ix2 j⟩
  rw [Cert.Bridge.poolR_apply]
  refine (shapeCast_apply (pooled4 x) _ (ix2 b c) (ix4 b c 0 0) ?_).trans rfl
  rw [Shape.rowMajor_val_four, Shape.rowMajor_val_two]
  show ((b.val * 256 + c.val) * 1 + 0) * 1 + 0 = b.val * 256 + c.val
  omega

/-- The activations times the [16,256,1,1] cast of the reference's gate stage are the reference's result: its two
    closing broadcasts read the gate at the batch row and channel of the index. -/
theorem scaled_cast (x : S16x256x128x128.Idx → EReal) (x1 : S16x256.Idx → EReal) (x2 : S16.Idx → EReal)
    (x3 : S256x16.Idx → EReal) (x4 : S256.Idx → EReal) :
    scaled (F := Ideal) x (shapeCast S16x256x1x1 (Cert.ReferenceIdeal.Read.val_main_v21 (F := Ideal) x x1 x2 x3 x4) shapeCasts_S16x256_S16x256x1x1)
      = Cert.ReferenceIdeal.Read.val_main_v24 (F := Ideal) x x1 x2 x3 x4 := by
  funext i
  rw [Cert.ReferenceIdeal.Read.val_main_v24_apply, Cert.ReferenceIdeal.Read.val_main_v23_apply, Cert.ReferenceIdeal.Read.val_main_v22_apply]
  unfold scaled
  refine congrArg (FloatOps.mulf (F := Ideal) (φ := .f32) (x i)) ?_
  refine shapeCast_apply _ _ _ _ ?_
  rw [Shape.rowMajor_val_four, Shape.rowMajor_val_two]
  show (i 0).val * 256 + (i 1).val = (((i 0).val * 256 + (i 1).val) * 1 + 0) * 1 + 0
  omega

variable (m : (ℓ : Loc nD τ sig) → Buf (Elt Ideal) ℓ) (ρ : Dev nD → PrngReg)

/-- THE RESULT ARRAY after @main: the reference's last stage of the five arguments as launched. -/
theorem result_eq (c : Dev nD) :
    (dat2 (V4 m ρ) c).arrAt 2 cfg2.N
      = Cert.ReferenceIdeal.Read.val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [scale_final (V4 m ρ) c, entry2_main_arg0, entry2_main_v3, exit1_main_v2, gate_final (V2 m ρ) c,
    entry1_main_v1, entry1_main_arg1, entry1_main_arg2, entry1_main_arg3, entry1_main_arg4,
    exit0_main_v0, pool_final (V0 m ρ) c, entry0_main_arg0, pooled_cast, Cert.Bridge.gate_eq, scaled_cast]

end Cert.KernelIdeal.Run

end
-- ==== Proof.lean ====
/- A squeeze-and-excite block: the kernel against its jnp reference, equal over the extended reals.

   Both programs take activations x [16,256,128,128] and the weights of two small dense layers. The reference pools
   x over the two spatial axes (sum, then divide by 16384), applies w1 and b1, a leaky relu of slope 0.01, w2 and b2,
   a sigmoid spelt 1/(1+e⁻ᶻ), and multiplies x by that gate spread over the spatial axes. The kernel does the same in
   three pipelined regions with a reshape between each pair: a pooling region (two one-axis sums, then a product with
   2⁻¹⁴), a gate region (two matrix products into zero accumulators, the biases spread by a cast and a broadcast, the
   sigmoid as one operation), and a scaling region.

   The three frames are the generated ones (the reference's is its generated run with the result dropped); the
   idealization rewrote nothing, so there is nothing to preserve; and the value claim is carried by naming the result
   array in the kernel's run and showing it, region by region, to be the reference's last stage of the same
   arguments. No step needs the inputs finite: every law used holds on all extended reals. -/
import proofs.«128204_j14757507629900_1_alg».proof.Defs
import proofs.«128204_j14757507629900_1_alg».proof.Proof.Gen.Kernel
import proofs.«128204_j14757507629900_1_alg».proof.Proof.Gen.Kernel.Skeleton
import proofs.«128204_j14757507629900_1_alg».proof.Proof.Gen.Kernel.Launch
import proofs.«128204_j14757507629900_1_alg».proof.Proof.Gen.Kernel.Points
import proofs.«128204_j14757507629900_1_alg».proof.Proof.Gen.Kernel.Frame
import proofs.«128204_j14757507629900_1_alg».proof.Proof.Gen.KernelIdeal
import proofs.«128204_j14757507629900_1_alg».proof.Proof.Gen.KernelIdeal.Skeleton
import proofs.«128204_j14757507629900_1_alg».proof.Proof.Gen.KernelIdeal.Launch
import proofs.«128204_j14757507629900_1_alg».proof.Proof.Gen.KernelIdeal.Points
import proofs.«128204_j14757507629900_1_alg».proof.Proof.Gen.KernelIdeal.Frame
import proofs.«128204_j14757507629900_1_alg».proof.Proof.Gen.ReferenceIdeal
import proofs.«128204_j14757507629900_1_alg».proof.Proof.Gen.Pre_finite_inputs
import proofs.«128204_j14757507629900_1_alg».proof.Proof.Gen.ReferenceIdeal.Run
import proofs.«128204_j14757507629900_1_alg».proof.Proof.Gen.ReferenceIdeal.Read
import proofs.«128204_j14757507629900_1_alg».proof.Proof.ResultValue
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is host operations only: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the five arguments both programs end with the same result: the reference's last
    stage of those arguments. -/
theorem algebraic : Cert.algebraic_KernelIdeal_ReferenceIdeal := by
  intro m ρ m' ρ' _ hagree
  refine ⟨fun c => Cert.ReferenceIdeal.Read.val_main_v24 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.Run.result_eq m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2]
    exact Cert.ReferenceIdeal.Read.val_main_v24_eq _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
